-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Blocks.lean ====
/-
  The input blocks of a grid point as entries of the whole arrays. Point `t` of the 8 × 4 × 4 grid is
  `t = 16 · i + 4 · j + k`: it works on rows `512 · i …` of `x`, rows `1024 · j …` of `W` (columns `1024 · j …`
  of the result), and the stretch `1024 · k …` of the contracted axis. A block's entry at a coordinate inside the
  block is the array's entry at block index × block extent + that coordinate, on each axis; the block indices are
  the quotients and remainders of `t`, decided once over the 128 points. The bias window reads the `[1, 4096]`
  array the program makes from `b` before the region, a reshape: its entry `(0, j)` is `b j`, both sitting at
  row-major position `j`.
-/
import proofs.«150110_j21251498180720_1_alg».proof.Proof.Gen.KernelIdeal.Value
import Idealize.ShloMosaic.Lib.Pipeline.Value
import Idealize.ShloMosaic.Lib.ValueIdx
import Idealize.ShloMosaic.Lib.StableHlo.Run

noncomputable section

namespace Cert.KernelIdeal.Blk

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The block of `x`, of `W` and of the reshaped bias that point `t` works on, at their literal shapes. -/
abbrev xblk (c : Dev nD) (t : Fin cfg0.N) : Vec F S512x1024 .f32 := iblk m c 0 t
abbrev wblk (c : Dev nD) (t : Fin cfg0.N) : Vec F S1024x1024 .f32 := iblk m c 1 t
abbrev bblk (c : Dev nD) (t : Fin cfg0.N) : Vec F S1x1024 .f32 := iblk m c 2 t

/-- The block indices of the four windows at point `t = 16 · i + 4 · j + k`: `(i, k)`, `(j, k)`, `(0, j)`, `(i, j)`. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Entry `(p, kk)` of the `x` block at `t` is `x (512 · (t / 16) + p, 1024 · (t % 4) + kk)`. -/
theorem xblk_apply (c : Dev nD) (t : Fin cfg0.N) (p : Fin 512) (kk : Fin 1024) (r k : Fin 4096)
    (hr : r.val = 512 * (t.val / 16) + p.val) (hk : k.val = 1024 * (t.val % 4) + kk.val) :
    xblk m c t (ix2 p kk) = V m c main_arg0 (ix2 r k) := by
  show V m c main_arg0 (((cfg0.win 0).blk t).view.emb (ix2 p kk)) = V m c main_arg0 (ix2 r k)
  refine congrArg _ (funext fun a => Fin.ext ?_)
  match a with
  | ⟨0, _⟩ =>
    show win0_0.index t 0 * 512 + 1 * p.val = r.val
    rw [(idx_facts t).1, hr]; omega
  | ⟨1, _⟩ =>
    show win0_0.index t 1 * 1024 + 1 * kk.val = k.val
    rw [(idx_facts t).2.1, hk]; omega

/-- Entry `(q, kk)` of the `W` block at `t` is `W (1024 · (t / 4 % 4) + q, 1024 · (t % 4) + kk)`. -/
theorem wblk_apply (c : Dev nD) (t : Fin cfg0.N) (q : Fin 1024) (kk : Fin 1024) (cc k : Fin 4096)
    (hc : cc.val = 1024 * (t.val / 4 % 4) + q.val) (hk : k.val = 1024 * (t.val % 4) + kk.val) :
    wblk m c t (ix2 q kk) = V m c main_arg1 (ix2 cc k) := by
  show V m c main_arg1 (((cfg0.win 1).blk t).view.emb (ix2 q kk)) = V m c main_arg1 (ix2 cc k)
  refine congrArg _ (funext fun a => Fin.ext ?_)
  match a with
  | ⟨0, _⟩ =>
    show win0_1.index t 0 * 1024 + 1 * q.val = cc.val
    rw [(idx_facts t).2.2.1, hc]; omega
  | ⟨1, _⟩ =>
    show win0_1.index t 1 * 1024 + 1 * kk.val = k.val
    rw [(idx_facts t).2.2.2.1, hk]; omega

/-- What the region finds in the bias window's array: the reshape of `b` to `[1, 4096]`. -/
theorem bias_arr (c : Dev nD) :
    (V m c main_v0 : S1x4096.Idx → Elt F .f32) = shapeCast S1x4096 (m ((c : Thread nD τ).loc main_arg2)) shapeCasts_S4096_S1x4096 := by
  dsimp only [V, hostOps0]; after_results; rfl

/-- Its entry `(0, j)` is `b j`. -/
theorem bias_arr_apply (c : Dev nD) (j : Fin 4096) :
    (V m c main_v0 : S1x4096.Idx → Elt F .f32) (ix2 (0 : Fin 1) j) = m ((c : Thread nD τ).loc main_arg2) (ix1 j) := by
  rw [bias_arr]
  refine shapeCast_apply _ shapeCasts_S4096_S1x4096 (ix2 (0 : Fin 1) j) (ix1 j) ?_
  rw [Shape.rowMajor_val_one, Shape.rowMajor_val_two]
  show j.val = 0 * 4096 + j.val
  omega

/-- Entry `(0, q)` of the bias block at `t` is `b (1024 · (t / 4 % 4) + q)`. -/
theorem bblk_apply (c : Dev nD) (t : Fin cfg0.N) (q : Fin 1024) (cc : Fin 4096)
    (hc : cc.val = 1024 * (t.val / 4 % 4) + q.val) :
    bblk m c t (ix2 (0 : Fin 1) q) = m ((c : Thread nD τ).loc main_arg2) (ix1 cc) := by
  rw [← bias_arr_apply m c cc]
  show V m c main_v0 (((cfg0.win 2).blk t).view.emb (ix2 (0 : Fin 1) q)) = V m c main_v0 (ix2 (0 : Fin 1) cc)
  refine congrArg _ (funext fun a => Fin.ext ?_)
  match a with
  | ⟨0, _⟩ =>
    show win0_2.index t 0 * 1 + 1 * 0 = 0
    rw [(idx_facts t).2.2.2.2.1]
  | ⟨1, _⟩ =>
    show win0_2.index t 1 * 1024 + 1 * q.val = cc.val
    rw [(idx_facts t).2.2.2.2.2.1, hc]; omega

end Cert.KernelIdeal.Blk

end
-- ==== Proof.Pieces.lean ====
/-
  What each control case of the body leaves behind, as the body's own arithmetic terms of the blocks it loaded.
  The accumulator buffer is stored whole by every case, so what it holds afterwards is the last stored value:
  at the first point of a run over the contraction axis, the accumulation step applied to the freshly stored zero
  block (the step's read of the accumulator sees that store); at every later point, the accumulation step applied to
  what the point before left. At a run's last point the output block is stored whole too, with the closing step
  applied to the accumulator the same point has just updated. Every load reads a whole buffer from its origin, so
  each loaded value is the buffer's contents. All of it holds for any float instance.
-/
import proofs.«150110_j21251498180720_1_alg».proof.Proof.Gen.KernelIdeal.Frame
import Idealize.ShloMosaic.Lib.Pipeline.Value
import Idealize.ShloMosaic.Lib.Tactic

noncomputable section

namespace Cert.KernelIdeal.Piece

open Cert.KernelIdeal Cert.KernelIdeal.Gen Idealize.ShloMosaic Idealize.ShloMosaic.TcCoe Idealize.ShloMosaic.Tactic Idealize.SL.Sem

variable {F : FTy → Type} [FloatOps F]

/-- Every load and store of the body starts at the origin of its buffer. -/
theorem hz : (![0, 0] : Fin 2 → Nat) = fun _ => 0 := funext fun a => by fin_cases a <;> rfl

/-- First point of a run: the accumulator ends at the accumulation step over the zero block. -/
theorem scratch_A (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x0 : Vec F S512x1024 .f32) (x1 : Vec F S1024x1024 .f32) (x2 : Vec F S1x1024 .f32) :
    sout0_A_0 c i arg3 harg3 arg4 harg4 arg5 harg5 arg6 harg6 arg7 harg7 hc0 hc1 x0 x1 x2 = k0_pay2 x0 x1 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg7.read_unread, View.readCov_unit_zero (S := S512x1024) _ hz, View.ld_unit_zero (S := S512x1024) hz, View.ld_unit_zero (S := S1024x1024) hz, View.ld_unit_zero (S := S1x1024) hz]

/-- A middle point: the accumulator ends at the accumulation step over what it held. -/
theorem scratch_B (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i)
    (x0 : Vec F S512x1024 .f32) (x1 : Vec F S1024x1024 .f32) (x2 : Vec F S1x1024 .f32) (xs0 : Vec F S512x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg5.read_unread, harg7.read_unread, View.readCov_unit_zero (S := S512x1024) _ hz, View.ld_unit_zero (S := S512x1024) hz, View.ld_unit_zero (S := S1024x1024) hz, View.ld_unit_zero (S := S1x1024) hz]

/-- The last point of a run: the same for the accumulator, -/
theorem scratch_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1024x1024 .f32) (x2 : Vec F S1x1024 .f32) (xs0 : Vec F S512x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.readCov_unit_zero (S := S512x1024) _ hz, View.ld_unit_zero (S := S512x1024) hz, View.ld_unit_zero (S := S1024x1024) hz, View.ld_unit_zero (S := S1x1024) hz]

/-- and the output block ends at the closing step over the accumulator as just updated. -/
theorem out_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1024x1024 .f32) (x2 : Vec F S1x1024 .f32) (xs0 : Vec F S512x1024 .f32) :
    out0_C_3 c i arg3 harg3 arg4 harg4 arg5 harg5 arg6 harg6 arg7 harg7 hc0 hc1 x0 x1 x2 xs0 = k0_pay3 x2 (k0_pay2 x0 x1 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.readCov_unit_zero (S := S512x1024) _ hz, View.ld_unit_zero (S := S512x1024) hz, View.ld_unit_zero (S := S1024x1024) hz, View.ld_unit_zero (S := S1x1024) hz]

end Cert.KernelIdeal.Piece

end
-- ==== Proof.Payload.lean ====
/-
  The body's three stored values read at one entry, on the extended reals.
  The reset block is zero. The accumulation step stores, at entry `(p, q)`, what the accumulator held there plus the
  inner product of row `p` of the 512 × 1024 block of `x` with row `q` of the 1024 × 1024 block of `W`: the change of
  float format on both operands is the identity on extended reals, the transposition only swaps which coordinate of
  the `W` block the contraction runs over, and the matrix product into a zero accumulator is the plain sum over the
  1024 contracted positions. The closing step stores the accumulator plus `2 · b`, the bias row broadcast down the
  512 rows.
-/
import proofs.«150110_j21251498180720_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The reset block is zero at every entry. -/
theorem pay1_apply (j : S512x1024.Idx) : k0_pay1 (F := Ideal) j = 0 := by
  unfold k0_pay1
  simp only [shapeCast_self]
  exact Ideal.ofBits_zero_f32

/-! ### The product's operand positions, axis by axis -/

/-- The left operand is read in the output's row … -/
theorem lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … at the contracted position; -/
theorem lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand at the contracted position … -/
theorem rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … in the output's column. -/
theorem rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The matrix product into a zero accumulator, at entry `(p, q)`: the sum over the 1024 contracted positions `k` of
    the left operand at `(p, k)` times the right operand at `(k, q)`. -/
theorem mm_apply (a : FVec Ideal S512x1024 .bf16) (b : FVec Ideal S1024x1024 .bf16) (p : Fin 512) (q : Fin 1024) :
    Idealize.ShloMosaic.matmul dot_S512x1024_S1024x1024_S512x1024_1_0_0_1_n_n none a b (constant S512x1024 .f32 0x00000000#32) (ix2 p q)
      = ∑ k : Fin 1024, a (ix2 p k) * b (ix2 k q) := by
  show FloatOps.matmul dot_S512x1024_S1024x1024_S512x1024_1_0_0_1_n_n none a b (constant S512x1024 .f32 0x00000000#32) (ix2 p q) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-- The accumulation step at entry `(p, q)`: the accumulator there plus the inner product of row `p` of the `x` block
    with row `q` of the `W` block. -/
theorem pay2_apply (v3 : Vec Ideal S512x1024 .f32) (v5 : Vec Ideal S1024x1024 .f32) (v7 : Vec Ideal S512x1024 .f32)
    (p : Fin 512) (q : Fin 1024) :
    k0_pay2 v3 v5 v7 (ix2 p q) = v7 (ix2 p q) + ∑ k : Fin 1024, v3 (ix2 p k) * v5 (ix2 q k) := by
  unfold k0_pay2
  simp only [shapeCast_self]
  rw [addf_apply, mm_apply]
  refine congrArg (v7 (ix2 p q) + ·) (Finset.sum_congr rfl fun k _ => ?_)
  rw [transpose_ix2_apply]
  rfl

/-- The closing step at entry `(p, q)`: the accumulator there plus twice the bias row's entry `q`. -/
theorem pay3_apply (v17 : Vec Ideal S1x1024 .f32) (v21 : Vec Ideal S512x1024 .f32) (p : Fin 512) (q : Fin 1024) :
    k0_pay3 v17 v21 (ix2 p q) = v21 (ix2 p q) + Ideal.ofBits .f32 0x40000000#32 * v17 (ix2 (0 : Fin 1) q) := by
  unfold k0_pay3
  simp only [shapeCast_self]
  rw [addf_apply, mulf_apply]
  refine congrArg (v21 (ix2 p q) + ·) (congrArg (Ideal.ofBits .f32 0x40000000#32 * ·) ?_)
  exact broadcastTo_apply _ broadcasts_S1x1024_S512x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

end Cert.KernelIdeal.Pay

end
-- ==== Proof.Fold.lean ====
/-
  What the accumulator holds after any grid point, as a sum. The points `4 · Q, …, 4 · Q + 3` are one run over the
  contracted axis for a fixed output block. The run's first point leaves `0 + a₀`, and each later point adds its own
  addend to what the point before left, where point `n`'s addend at entry `(p, q)` is the inner product of row `p`
  of its `x` block with row `q` of its `W` block. So after point `t` the accumulator is zero plus the sum of the
  addends of the points `4 · (t / 4), …, t`. At a run's last point the output block is the closing step applied to
  that accumulator.
-/
import proofs.«150110_j21251498180720_1_alg».proof.Proof.Blocks
import proofs.«150110_j21251498180720_1_alg».proof.Proof.Pieces
import proofs.«150110_j21251498180720_1_alg».proof.Proof.Payload

noncomputable section

open scoped BigOperators

namespace Cert.KernelIdeal.Fold

open Cert.KernelIdeal Cert.KernelIdeal.Gen Cert.KernelIdeal.Value Cert.KernelIdeal.Blk
open Idealize.ShloMosaic Idealize.ShloMosaic.TcCoe Idealize.SL.Sem Idealize.ShloMosaic.ValueIdx

section AnyInstance

variable {F : FTy → Type} [FloatOps F]
variable (m : (ℓ : Loc nD τ sig) → Buf (Elt F) ℓ)

/-- At a run's first point the accumulator is reset: the accumulation step over the zero block, whatever it held. -/
theorem scAt_reset (c : Dev nD) (n : ℕ) (hb : n < cfg0.N) (hn : n % 4 = 0) (acc : Vec F S512x1024 .f32) :
    scAt0_0 m c n hb acc = k0_pay2 (xblk m c ⟨n, hb⟩) (wblk m c ⟨n, hb⟩) k0_pay1 := by
  have h1 : ¬n % 4 = 3 := by omega
  unfold scAt0_0
  rw [dif_pos hn, dif_neg h1]
  exact Piece.scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr hn) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))

/-- At every other point it is the accumulation step over what the point before left. -/
theorem scAt_step (c : Dev nD) (n : ℕ) (hb : n < cfg0.N) (hn : ¬n % 4 = 0) (acc : Vec F S512x1024 .f32) :
    scAt0_0 m c n hb acc = k0_pay2 (xblk m c ⟨n, hb⟩) (wblk m c ⟨n, hb⟩) acc := by
  unfold scAt0_0
  rw [dif_neg hn]
  by_cases h1 : n % 4 = 3
  · rw [dif_pos h1]
    exact Piece.scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => hn ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
  · rw [dif_neg h1]
    exact Piece.scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => hn ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

/-- At a run's last point the output block is the closing step over the accumulator that point leaves. -/
theorem out_last (c : Dev nD) (t : Fin cfg0.N) (h0 : ¬t.val % 4 = 0) (h1 : t.val % 4 = 3) :
    (outsAt0 m c t.val t.isLt).1 = k0_pay3 (bblk m c t) (outsAt0 m c t.val t.isLt).2 := by
  rw [outsAt0_C m c t h0 h1]
  dsimp only
  rw [Piece.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
    Piece.scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]

end AnyInstance

variable (m : (ℓ : Loc nD τ sig) → Buf (Elt Ideal) ℓ)

/-- Point `n`'s addend at an entry: the inner product of the entry's row of the point's `x` block with its row of the
    point's `W` block (zero for a number past the grid, never consulted). -/
def addend (c : Dev nD) (n : ℕ) (i : S512x1024.Idx) : EReal :=
  if h : n < cfg0.N then ∑ kk : Fin 1024, xblk m c ⟨n, h⟩ (ix2 (i 0) kk) * wblk m c ⟨n, h⟩ (ix2 (i 1) kk) else 0

theorem addend_of_lt (c : Dev nD) (n : ℕ) (h : n < cfg0.N) (p : Fin 512) (q : Fin 1024) :
    addend m c n (ix2 p q) = ∑ kk : Fin 1024, xblk m c ⟨n, h⟩ (ix2 p kk) * wblk m c ⟨n, h⟩ (ix2 q kk) := dif_pos h

/-- After point `t` the accumulator holds zero plus the addends of its run's points up to `t`. -/
theorem scratch_sum (c : Dev nD) (t : Fin cfg0.N) (i : S512x1024.Idx) :
    (outsAt0 m c t.val t.isLt).2 i = 0 + ∑ s ∈ Finset.range (t.val % 4 + 1), addend m c (4 * (t.val / 4) + s) i := by
  rw [soutsAt0_0_eq m c t]
  refine Pipeline.accAt_add_apply (ι := S512x1024.Idx) (β := EReal)
    (fun n h => scAt0_0 m c n h (VS0_0.read (Elt Ideal) VS0_0.junk)) (scAt0_0 m c) (fun _ => 0) (addend m c)
    (4 * (t.val / 4)) 3 ?_ ?_ (t.val % 4) (by omega) _ i
  · intro h i
    obtain ⟨p, q, rfl⟩ : ∃ (p : Fin 512) (q : Fin 1024), i = ix2 p q := ⟨i 0, i 1, eq_ix2 i⟩
    rw [scAt_reset m c _ h (by omega), Pay.pay2_apply, Pay.pay1_apply, addend_of_lt m c _ h]
  · intro n h acc i h1 h2
    obtain ⟨p, q, rfl⟩ : ∃ (p : Fin 512) (q : Fin 1024), i = ix2 p q := ⟨i 0, i 1, eq_ix2 i⟩
    rw [scAt_step m c n h (by omega), Pay.pay2_apply, addend_of_lt m c n h]

end Cert.KernelIdeal.Fold

end
-- ==== Proof.Spec.lean ====
/-
  The result `x · Wᵀ + 2 · b` as ONE function of the three arrays, entry by entry over the extended reals, and the one
  law of sums the comparison of the two programs needs: a sum over 4096 consecutive terms is the sum, over four
  consecutive blocks of 1024 terms, of each block's sum. Only the commutative-monoid laws of `+` are used (regrouping
  a finite sum), so nothing here asks the entries to be finite.
-/
import Idealize.ShloMosaic.PureOps.Ideal
import Idealize.ShloMosaic.Lib.ValueIdx
import Mathlib.Algebra.BigOperators.Fin

noncomputable section

open scoped BigOperators

namespace Cert.MatmulBias

open Idealize.ShloMosaic Idealize.ShloMosaic.ValueIdx

/-- Entry `(r, c)` of the result: the inner product of row `r` of `x` with row `c` of `W` (both of length 4096),
    plus `two` times entry `c` of `b`. -/
def result (two : EReal) (x W : (⟨2, ![4096, 4096]⟩ : Shape).Idx → EReal) (b : (⟨1, ![4096]⟩ : Shape).Idx → EReal) :
    (⟨2, ![4096, 4096]⟩ : Shape).Idx → EReal :=
  fun i => (∑ k : Fin 4096, x (ix2 (i 0) k) * W (ix2 (i 1) k)) + two * b (ix1 (i 1))

/-- A sum over `B · n` consecutive naturals is the sum, over `n` consecutive blocks of `B`, of each block's sum. -/
theorem sum_blocks {β : Type*} [AddCommMonoid β] (f : ℕ → β) (B : ℕ) :
    ∀ n : ℕ, ∑ s ∈ Finset.range n, ∑ kk ∈ Finset.range B, f (B * s + kk) = ∑ k ∈ Finset.range (B * n), f k
  | 0 => by simp
  | n + 1 => by rw [Finset.sum_range_succ, sum_blocks f B n, Nat.mul_succ, Finset.sum_range_add]

/-- The same for four blocks of 1024, the terms indexed by `Fin`. -/
theorem sum_four_blocks {β : Type*} [AddCommMonoid β] (f : ℕ → β) :
    ∑ s ∈ Finset.range 4, ∑ kk : Fin 1024, f (1024 * s + kk.val) = ∑ k : Fin 4096, f k.val := by
  have h : ∑ s ∈ Finset.range 4, ∑ kk ∈ Finset.range 1024, f (1024 * s + kk) = ∑ k ∈ Finset.range 4096, f k :=
    sum_blocks f 1024 4
  rw [← Finset.sum_range f, ← h]
  exact Finset.sum_congr rfl fun s _ => (Finset.sum_range fun kk => f (1024 * s + kk)).symm

/-- A row of length 4096 read at any natural: its entry below 4096, zero past the end (never consulted there). -/
def row {β : Type*} [Zero β] (u : Fin 4096 → β) (k : ℕ) : β := if h : k < 4096 then u ⟨k, h⟩ else 0

theorem row_of_lt {β : Type*} [Zero β] (u : Fin 4096 → β) (k : ℕ) (h : k < 4096) : row u k = u ⟨k, h⟩ := dif_pos h

theorem row_val {β : Type*} [Zero β] (u : Fin 4096 → β) (k : Fin 4096) : row u k.val = u k := dif_pos k.isLt

/-- The inner product of two rows of length 4096 is the sum of the four inner products of their consecutive
    stretches of length 1024. -/
theorem inner_four_blocks (u v : Fin 4096 → EReal) :
    ∑ s ∈ Finset.range 4, ∑ kk : Fin 1024, row u (1024 * s + kk.val) * row v (1024 * s + kk.val) = ∑ k : Fin 4096, u k * v k := by
  rw [sum_four_blocks fun k => row u k * row v k]
  exact Finset.sum_congr rfl fun k _ => by rw [row_val, row_val]

end Cert.MatmulBias

end
-- ==== Proof.Final.lean ====
/-
  The result array after the kernel's run is the specification's `result` of the three arguments.
  The output block `(i, j)` is written back once, at the last point `t = 16 · i + 4 · j + 3` of its run. There the
  accumulator holds zero plus the four addends of the run; the addend of the run's point number `s` is the inner
  product of the stretch `1024 · s …` of row `512 · i + p` of `x` with the same stretch of row `1024 · j + q` of `W`,
  so the four of them add up to the whole inner product over 4096 (regrouping a finite sum). The closing step adds
  `2 · b (1024 · j + q)`. That is `result` at `(512 · i + p, 1024 · j + q)`; and every entry of the 4096 × 4096 result
  lies in exactly such a block, the one with `i = row / 512`, `j = column / 1024`.
-/
import proofs.«150110_j21251498180720_1_alg».proof.Proof.Fold
import proofs.«150110_j21251498180720_1_alg».proof.Proof.Spec

noncomputable section

open scoped BigOperators

namespace Cert.KernelIdeal.Final

open Cert.KernelIdeal Cert.KernelIdeal.Gen Cert.KernelIdeal.Value Cert.KernelIdeal.Blk Cert.KernelIdeal.Fold
open Idealize.ShloMosaic Idealize.ShloMosaic.TcCoe Idealize.SL.Sem Idealize.ShloMosaic.ValueIdx
open Idealize.ShloMosaic.Pipeline (Dat)
open Cert.MatmulBias

variable (m : (ℓ : Loc nD τ sig) → Buf (Elt Ideal) ℓ) (ρ : Dev nD → PrngReg)

/-- The three argument arrays on core `c`, at their literal shapes over the extended reals. -/
abbrev xarr (c : Dev nD) : S4096x4096.Idx → EReal := m ((c : Thread nD τ).loc main_arg0)
abbrev warr (c : Dev nD) : S4096x4096.Idx → EReal := m ((c : Thread nD τ).loc main_arg1)
abbrev barr (c : Dev nD) : S4096.Idx → EReal := m ((c : Thread nD τ).loc main_arg2)

/-- The result array: `result` of the argument arrays, with the constant the body multiplies the bias by. -/
abbrev G (c : Dev nD) : S4096x4096.Idx → EReal :=
  result (Ideal.ofBits .f32 0x40000000#32) (xarr m c) (warr m c) (barr m c)

/-- At the last point `t` of a run, entry `(p, q)` of the output block is `result` at row `512 · (t / 16) + p`
    and column `1024 · (t / 4 % 4) + q`. -/
theorem block_value (c : Dev nD) (t : Fin cfg0.N) (h3 : t.val % 4 = 3) (p : Fin 512) (q : Fin 1024) (r cc : Fin 4096)
    (hr : r.val = 512 * (t.val / 16) + p.val) (hc : cc.val = 1024 * (t.val / 4 % 4) + q.val) :
    (outsAt0 m c t.val t.isLt).1 (ix2 p q) = G m c (ix2 r cc) := by
  have hN : t.val < 128 := lt_of_lt_of_eq t.isLt (show cfg0.N = 128 from N_0)
  have e4 : Finset.range (t.val % 4 + 1) = Finset.range 4 := by rw [h3]
  rw [out_last m c t (by omega) h3, Pay.pay3_apply, scratch_sum m c t (ix2 p q), bblk_apply m c t q cc hc, e4, zero_add]
  show _ = (∑ k : Fin 4096, xarr m c (ix2 r k) * warr m c (ix2 cc k)) + Ideal.ofBits .f32 0x40000000#32 * barr m c (ix1 cc)
  rw [← inner_four_blocks (fun k => xarr m c (ix2 r k)) (fun k => warr m c (ix2 cc k))]
  refine congrArg (· + _) (Finset.sum_congr rfl fun s hs => ?_)
  have hs4 : s < 4 := Finset.mem_range.mp hs
  have hn : 4 * (t.val / 4) + s < cfg0.N :=
    lt_of_lt_of_eq (by omega : 4 * (t.val / 4) + s < 128) (show cfg0.N = 128 from N_0).symm
  rw [addend_of_lt m c _ hn]
  refine Finset.sum_congr rfl fun kk _ => ?_
  have hkk : kk.val < 1024 := kk.isLt
  have hk : 1024 * s + kk.val < 4096 := by omega
  rw [row_of_lt _ _ hk, row_of_lt _ _ hk,
    xblk_apply m c ⟨4 * (t.val / 4) + s, hn⟩ p kk r ⟨1024 * s + kk.val, hk⟩
      (by show r.val = 512 * ((4 * (t.val / 4) + s) / 16) + p.val; omega)
      (by show 1024 * s + kk.val = 1024 * ((4 * (t.val / 4) + s) % 4) + kk.val; omega),
    wblk_apply m c ⟨4 * (t.val / 4) + s, hn⟩ q kk cc ⟨1024 * s + kk.val, hk⟩
      (by show cc.val = 1024 * ((4 * (t.val / 4) + s) / 4 % 4) + q.val; omega)
      (by show 1024 * s + kk.val = 1024 * ((4 * (t.val / 4) + s) % 4) + kk.val; omega),
    V_main_arg0, V_main_arg1]

/-- What a point that writes back writes is its block of the result array. -/
theorem flushed_eq (c : Dev nD) (t : Fin cfg0.N) (hf : (cfg0.win 3).flush t = true) :
    (dats m 0 c).flushed 3 t = ((cfg0.win 3).blk t).view.read (Elt Ideal) (G m c) := by
  have h3 : t.val % 4 = 3 := (flush0_3 t).mp hf
  have hN : t.val < 128 := lt_of_lt_of_eq t.isLt (show cfg0.N = 128 from N_0)
  rw [Value.flushed3]
  refine funext fun (j : S512x1024.Idx) => ?_
  obtain ⟨p, q, rfl⟩ : ∃ (p : Fin 512) (q : Fin 1024), j = ix2 p q := ⟨j 0, j 1, eq_ix2 j⟩
  have hp : p.val < 512 := p.isLt
  have hq : q.val < 1024 := q.isLt
  show (outsAt0 m c t.val t.isLt).1 (ix2 p q) = G m c (((cfg0.win 3).blk t).view.emb (ix2 p q))
  have he : ((cfg0.win 3).blk t).view.emb (ix2 p q)
      = ix2 (⟨512 * (t.val / 16) + p.val, by omega⟩ : Fin 4096) (⟨1024 * (t.val / 4 % 4) + q.val, by omega⟩ : Fin 4096) := by
    funext a; apply Fin.ext
    match a with
    | ⟨0, _⟩ =>
      show win0_3.index t 0 * 512 + 1 * p.val = 512 * (t.val / 16) + p.val
      rw [(idx_facts t).2.2.2.2.2.2.1]; omega
    | ⟨1, _⟩ =>
      show win0_3.index t 1 * 1024 + 1 * q.val = 1024 * (t.val / 4 % 4) + q.val
      rw [(idx_facts t).2.2.2.2.2.2.2]; omega
  rw [he]
  exact block_value m c t h3 p q _ _ rfl rfl

/-- Every entry of the result lies in the block some writing point writes back. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ : ∃ t : Fin cfg0.N, t.val = 16 * ((i 0).val / 512) + 4 * ((i 1).val / 1024) + 3 :=
    ⟨⟨16 * ((i 0).val / 512) + 4 * ((i 1).val / 1024) + 3, by rw [show cfg0.N = 128 from N_0]; omega⟩, rfl⟩
  refine ⟨t, (flush0_3 t).mpr (by omega), ?_⟩
  show i ∈ ((View.whole main_v1).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [(idx_facts t).2.2.2.2.2.2.1]; omega
  | ⟨1, _⟩ =>
    show win0_3.index t 1 * 1024 ≤ (i 1).val ∧ (i 1).val < win0_3.index t 1 * 1024 + 1024
    rw [(idx_facts t).2.2.2.2.2.2.2]; omega

/-- So the result array ends holding `result` of the arguments. -/
theorem final (c : Dev nD) : (dats m 0 c).arrAt 3 cfg0.N = G m c :=
  (dats m 0 c).arrAt_eq_of_cover 3 (G m c) (flushed_eq m c) cover

/-- The kernel's run: it terminates with the result array at `result` of the arguments and the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.RefResult.lean ====
/-
  The reference's last stage is the specification's `result`: entry `(r, c)` of `einsum('bi,oi->bo', x, W) + 2 · b` is
  the sum over the 4096 contracted positions `k` of `x (r, k) · W (c, k)`, plus the constant 2 (broadcast, then
  multiplied into `b` on the left) times `b c`, that product broadcast down the rows. Each stage is read at an
  index by the generated lemma for it; what is written here is that the stages' composed index maps are the
  coordinate pairs `(r, k)`, `(c, k)` and the coordinate `c`.
-/
import proofs.«150110_j21251498180720_1_alg».proof.Proof.Gen.ReferenceIdeal.Read
import proofs.«150110_j21251498180720_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The product's left operand is read at `(r, k)`, -/
theorem lidx_eq (i : S4096x4096.Idx) (k : Fin 4096) : lidx_main_v0 i k = ix2 (i 0) k :=
  funext fun a => Fin.ext (by match a with | ⟨0, _⟩ => rfl | ⟨1, _⟩ => rfl)
/-- its right operand at `(c, k)`, -/
theorem ridx_eq (i : S4096x4096.Idx) (k : Fin 4096) : ridx_main_v0 i k = ix2 (i 1) k :=
  funext fun a => Fin.ext (by match a with | ⟨0, _⟩ => rfl | ⟨1, _⟩ => rfl)
/-- and the two broadcasts of the scaled bias read it at `c`. -/
theorem bidx_eq (i : S4096x4096.Idx) : idx_main_v3 (idx_main_v4 i) = ix1 (i 1) :=
  funext fun a => Fin.ext (by match a with | ⟨0, _⟩ => rfl)

/-- The reference's result, as a function of its three arguments, is `result` with the constant the program
    multiplies the bias by. -/
theorem ref_result (x0 x1 : (⟨S4096x4096, .f32⟩ : BufTy).Contents (Elt Ideal)) (x2 : (⟨S4096, .f32⟩ : BufTy).Contents (Elt Ideal)) :
    val_main_v5 (F := Ideal) x0 x1 x2 = Cert.MatmulBias.result (Ideal.ofBits .f32 0x40000000#32) x0 x1 x2 := by
  funext i
  rw [val_main_v5_apply, val_main_v0_apply, val_main_v4_apply, val_main_v3_apply, val_main_v2_apply, val_main_v1_apply,
    val_main_cst_apply]
  simp only [lidx_eq, ridx_eq, bidx_eq, Ideal.addf_def, Ideal.mulf_def, Ideal.ofBits_def]
  rfl

end Cert.ReferenceIdeal.RefValue

end
-- ==== Proof.lean ====
/-
  The kernel computes `x · Wᵀ + 2 · b` over f32[4096, 4096] × f32[4096, 4096] × f32[4096] as a blocked matrix product:
  an 8 × 4 × 4 grid whose last axis runs over the contracted dimension in four stretches of 1024, an accumulator
  block of 512 × 1024 zeroed at the first stretch, each point adding the product of its 512 × 1024 block of `x` with the
  transposed 1024 × 1024 block of `W` (both cast to bf16 first), and the last stretch writing the accumulator plus
  twice the broadcast bias to the output block. The reference is `einsum('bi,oi->bo', x, W) + 2 · b`.

  Over the extended reals the two agree entry by entry, and the argument needs no finiteness. A change of float
  format is the identity, a matrix product into a zero accumulator is the plain sum of products, and so is the
  host's contraction; the transposition only names which coordinate of `W`'s block is contracted. Entry `(r, c)` of
  the kernel's result is therefore `((((0 + S₀) + S₁) + S₂) + S₃) + 2 · b c`, with `Sₛ` the sum of `x (r, k) · W (c, k)`
  over `k` in the stretch `1024 · s, …, 1024 · s + 1023`; the reference's is the same sum over all 4096 values of `k`
  at once, plus `2 · b c`. Splitting a finite sum into consecutive blocks uses only that addition is commutative and
  associative, which holds on the extended reals with their infinities. The constant 2 is the same literal on both
  sides, multiplied on the same side, and is never evaluated.

  The modules: `Spec` (the result as one function of the arrays; the sum split into four blocks), `Payload` (the
  body's three stored values at an entry), `Pieces` (what each control case of the body leaves in the accumulator and
  in the output block), `Blocks` (a point's input blocks as entries of the whole arrays), `Fold` (the accumulator
  after any point as zero plus its run's addends), `Final` (the result array after the run), `RefResult` (the
  reference's stages composed). The three termination-and-frame claims are the programs' runs with the values dropped;
  the idealized kernel is the kernel's own text read over the extended reals, with nothing rewritten.
-/
import proofs.«150110_j21251498180720_1_alg».proof.Defs
import proofs.«150110_j21251498180720_1_alg».proof.Proof.Gen.Kernel
import proofs.«150110_j21251498180720_1_alg».proof.Proof.Gen.Kernel.Skeleton
import proofs.«150110_j21251498180720_1_alg».proof.Proof.Gen.Kernel.Launch
import proofs.«150110_j21251498180720_1_alg».proof.Proof.Gen.Kernel.Points
import proofs.«150110_j21251498180720_1_alg».proof.Proof.Gen.Kernel.Frame
import proofs.«150110_j21251498180720_1_alg».proof.Proof.Gen.KernelIdeal
import proofs.«150110_j21251498180720_1_alg».proof.Proof.Gen.KernelIdeal.Skeleton
import proofs.«150110_j21251498180720_1_alg».proof.Proof.Gen.KernelIdeal.Launch
import proofs.«150110_j21251498180720_1_alg».proof.Proof.Gen.KernelIdeal.Points
import proofs.«150110_j21251498180720_1_alg».proof.Proof.Gen.KernelIdeal.Frame
import proofs.«150110_j21251498180720_1_alg».proof.Proof.Gen.ReferenceIdeal
import proofs.«150110_j21251498180720_1_alg».proof.Proof.Gen.Pre_finite_inputs
import proofs.«150110_j21251498180720_1_alg».proof.Proof.Gen.KernelIdeal.Value
import proofs.«150110_j21251498180720_1_alg».proof.Proof.Gen.ReferenceIdeal.Run
import proofs.«150110_j21251498180720_1_alg».proof.Proof.Gen.ReferenceIdeal.Read
import proofs.«150110_j21251498180720_1_alg».proof.Proof.Final
import proofs.«150110_j21251498180720_1_alg».proof.Proof.RefResult
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result's value dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals, so there is nothing to restate. -/
theorem preserves : Cert.preserves_Kernel_KernelIdeal := trivial

/-- From memories that agree on `x`, `W` and `b`, both programs end with the result array at `result` of those
    three arrays: the kernel by its run block by block, the reference by its stages composed. -/
theorem algebraic : Cert.algebraic_KernelIdeal_ReferenceIdeal := by
  intro m ρ m' ρ' _ hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_result,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
